-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x32x56x56 : Shape := ⟨5, ![32, 8, 32, 56, 56]⟩
abbrev S64x4 : Shape := ⟨2, ![64, 4]⟩
abbrev S_ : Shape := ⟨0, ![]⟩

class Facts : Prop where
  bcast_S_S32x8x32x56x56 : S_.BroadcastsInDim S32x8x32x56x56 (![] : Fin 0 → Fin S32x8x32x56x56.rank)
  reducesTo_S32x8x32x56x56_S_d0_1_2_3_4 : S32x8x32x56x56.ReducesTo [0, 1, 2, 3, 4] S_
  h_S_ : 0 < S_.numel
  bcast_S_S64x4 : S_.BroadcastsInDim S64x4 (![] : Fin 0 → Fin S64x4.rank)
  reducesTo_S64x4_S_d0_1 : S64x4.ReducesTo [0, 1] S_

variable [Facts]

def fn {F : FTy → Type} [FloatOps F] (main_arg0 : FVec F S32x8x32x56x56 .f32) (main_arg1 : IVec S64x4 32) : IVec S_ 1 :=
  let main_v0 : FVec F S32x8x32x56x56 .f32 := Host.absf main_arg0
  let main_cst : FVec F S_ .f32 := constant S_ .f32 0x7F800000#32
  let main_v1 : FVec F S32x8x32x56x56 .f32 := broadcastInDim S32x8x32x56x56 ![] bcast_S_S32x8x32x56x56 main_cst
  let main_v2 : IVec S32x8x32x56x56 1 := cmpf .olt main_v0 main_v1
  let main_c : IVec S_ 1 := constantI S_ 1 1#1
  let main_v3 : IVec S_ 1 := (fun x v => Host.reduce IntOp.andi x v reducesTo_S32x8x32x56x56_S_d0_1_2_3_4 h_S_) main_v2 main_c
  let main_c_0 : IVec S_ 32 := constantI S_ 32 0#32
  let main_v4 : IVec S64x4 32 := broadcastInDim S64x4 ![] bcast_S_S64x4 main_c_0
  let main_v5 : IVec S64x4 1 := cmpi .sge main_arg1 main_v4
  let main_c_1 : IVec S_ 32 := constantI S_ 32 256#32
  let main_v6 : IVec S64x4 32 := broadcastInDim S64x4 ![] bcast_S_S64x4 main_c_1
  let main_v7 : IVec S64x4 1 := cmpi .slt main_arg1 main_v6
  let main_v8 : IVec S64x4 1 := andi main_v5 main_v7
  let main_c_2 : IVec S_ 1 := constantI S_ 1 1#1
  let main_v9 : IVec S_ 1 := (fun x v => Host.reduce IntOp.andi x v reducesTo_S64x4_S_d0_1 h_S_) main_v8 main_c_2
  let main_v10 : IVec S_ 1 := andi main_v3 main_v9
  main_v10
-- ==== Kernel.lean ====
abbrev S32x8x32x56x56 : Shape := ⟨5, ![32, 8, 32, 56, 56]⟩
abbrev S64x4 : Shape := ⟨2, ![64, 4]⟩
abbrev S32x256x3136 : Shape := ⟨3, ![32, 256, 3136]⟩
abbrev S64x4x1 : Shape := ⟨3, ![64, 4, 1]⟩
abbrev S1x1x256 : Shape := ⟨3, ![1, 1, 256]⟩
abbrev S64x4x256 : Shape := ⟨3, ![64, 4, 256]⟩
abbrev S_ : Shape := ⟨0, ![]⟩
abbrev S64x256 : Shape := ⟨2, ![64, 256]⟩
abbrev S32x64x3136 : Shape := ⟨3, ![32, 64, 3136]⟩
abbrev S2x256x3136 : Shape := ⟨3, ![2, 256, 3136]⟩
abbrev S2x64x3136 : Shape := ⟨3, ![2, 64, 3136]⟩
abbrev S1x256x3136 : Shape := ⟨3, ![1, 256, 3136]⟩
abbrev S256x3136 : Shape := ⟨2, ![256, 3136]⟩
abbrev S64x3136 : Shape := ⟨2, ![64, 3136]⟩
abbrev S1x64x3136 : Shape := ⟨3, ![1, 64, 3136]⟩
abbrev S32x64x56x56 : Shape := ⟨4, ![32, 64, 56, 56]⟩

abbrev nBuf : Space → Nat
  | .hbm => 14
  | .vmem => 5
  | .smem => 0
  | _ => 0

abbrev bufTy : (tb : Table) → Fin (tcTables nBuf tb) → BufTy
  | .hbm, ⟨0, _⟩ => ⟨S32x8x32x56x56, .f32⟩
  | .hbm, ⟨1, _⟩ => ⟨S64x4, .i32⟩
  | .hbm, ⟨2, _⟩ => ⟨S32x256x3136, .f32⟩
  | .hbm, ⟨3, _⟩ => ⟨S64x4x1, .i32⟩
  | .hbm, ⟨4, _⟩ => ⟨S1x1x256, .i32⟩
  | .hbm, ⟨5, _⟩ => ⟨S64x4x256, .i32⟩
  | .hbm, ⟨6, _⟩ => ⟨S64x4x256, .i32⟩
  | .hbm, ⟨7, _⟩ => ⟨S64x4x256, .i1⟩
  | .hbm, ⟨8, _⟩ => ⟨S64x4x256, .f32⟩
  | .hbm, ⟨9, _⟩ => ⟨S_, .f32⟩
  | .hbm, ⟨10, _⟩ => ⟨S64x256, .f32⟩
  | .hbm, ⟨11, _⟩ => ⟨S64x256, .bf16⟩
  | .hbm, ⟨12, _⟩ => ⟨S32x64x3136, .f32⟩
  | .hbm, ⟨13, _⟩ => ⟨S32x64x56x56, .f32⟩
  | .local _ .vmem, ⟨0, _⟩ => ⟨S2x256x3136, .f32⟩
  | .local _ .vmem, ⟨1, _⟩ => ⟨S2x256x3136, .f32⟩
  | .local _ .vmem, ⟨2, _⟩ => ⟨S64x256, .bf16⟩
  | .local _ .vmem, ⟨3, _⟩ => ⟨S2x64x3136, .f32⟩
  | .local _ .vmem, ⟨4, _⟩ => ⟨S2x64x3136, .f32⟩
  | _, _ => ⟨S32x8x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x64x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x8x32x56x56_S32x256x3136 : S32x8x32x56x56.ShapeCasts S32x256x3136
  bcast_S64x4_S64x4x1_0_1 : S64x4.BroadcastsInDim S64x4x1 (![0, 1] : Fin 2 → Fin S64x4x1.rank)
  bcast_S64x4x1_S64x4x256_0_1_2 : S64x4x1.BroadcastsInDim S64x4x256 (![0, 1, 2] : Fin 3 → Fin S64x4x256.rank)
  bcast_S1x1x256_S64x4x256_0_1_2 : S1x1x256.BroadcastsInDim S64x4x256 (![0, 1, 2] : Fin 3 → Fin S64x4x256.rank)
  reducesTo_S64x4x256_S64x256_d1 : S64x4x256.ReducesTo [1] S64x256
  h_S_ : 0 < S_.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2x256x3136_S1x256x3136_0_0_0 : ∀ a, (![0, 0, 0] : Fin 3 → Nat) a + S1x256x3136.size a ≤ S2x256x3136.size a
  h_S1x256x3136 : 0 < S1x256x3136.numel
  shapeCasts_S1x256x3136_S256x3136 : S1x256x3136.ShapeCasts S256x3136
  natLt_1_32 : 1 < 32
  inb_S2x64x3136_S1x64x3136_0_0_0 : ∀ a, (![0, 0, 0] : Fin 3 → Nat) a + S1x64x3136.size a ≤ S2x64x3136.size a
  h_S1x64x3136 : 0 < S1x64x3136.numel
  shapeCasts_S1x64x3136_S64x3136 : S1x64x3136.ShapeCasts S64x3136
  shapeCasts_S64x3136_S1x64x3136 : S64x3136.ShapeCasts S1x64x3136
  inb_S2x256x3136_S1x256x3136_1_0_0 : ∀ a, (![1, 0, 0] : Fin 3 → Nat) a + S1x256x3136.size a ≤ S2x256x3136.size a
  inb_S2x64x3136_S1x64x3136_1_0_0 : ∀ a, (![1, 0, 0] : Fin 3 → Nat) a + S1x64x3136.size a ≤ S2x64x3136.size a
  shapeCasts_S32x64x3136_S32x64x56x56 : S32x64x3136.ShapeCasts S32x64x56x56
  dot_S64x256_S256x3136_S64x3136_1_0_0_1_n_n_wf : DotDims.WF S64x256 S256x3136 S64x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x3136.size a ≤ S32x256x3136.size a
  hwx0_0 : ∀ i : grid0.Coords, EltTy.bits .f32 = 32 ∨ (Rect.block (s := S32x256x3136) S2x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64x3136.size a ≤ S32x64x3136.size a
  hwx0_2 : ∀ i : grid0.Coords, EltTy.bits .f32 = 32 ∨ (Rect.block (s := S32x64x3136) S2x64x3136.size (cc0_transform_2 i) (hinb0_2 i)).WholeWords (EltTy.packing .f32)

variable [Facts₀]

def dot_S64x256_S256x3136_S64x3136_1_0_0_1_n_n : DotDims S64x256 S256x3136 S64x3136 where
  lhsContracting := [1]
  rhsContracting := [0]
  lhsNonContracting := [0]
  rhsNonContracting := [1]
  lhsBatch := []
  rhsBatch := []
  wf := dot_S64x256_S256x3136_S64x3136_1_0_0_1_n_n_wf

abbrev win0_0 : Pipeline.Window sig grid0 :=
  Pipeline.Window.ofSpec (Memref.whole main_v0) S2x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x64x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x32x56x56 : Shape := ⟨5, ![32, 8, 32, 56, 56]⟩
abbrev S64x4 : Shape := ⟨2, ![64, 4]⟩
abbrev S32x256x56x56 : Shape := ⟨4, ![32, 256, 56, 56]⟩
abbrev S256 : Shape := ⟨1, ![256]⟩
abbrev S_ : Shape := ⟨0, ![]⟩
abbrev S256x1 : Shape := ⟨2, ![256, 1]⟩
abbrev S32x64x4x56x56 : Shape := ⟨5, ![32, 64, 4, 56, 56]⟩
abbrev S32x64x56x56 : Shape := ⟨4, ![32, 64, 56, 56]⟩

abbrev nBuf : Space → Nat
  | .hbm => 36
  | .vmem => 0
  | .smem => 0
  | _ => 0

abbrev bufTy : (tb : Table) → Fin (tcTables nBuf tb) → BufTy
  | .hbm, ⟨0, _⟩ => ⟨S32x8x32x56x56, .f32⟩
  | .hbm, ⟨1, _⟩ => ⟨S64x4, .i32⟩
  | .hbm, ⟨2, _⟩ => ⟨S32x256x56x56, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S32x256x56x56, .f32⟩
  | .hbm, ⟨13, _⟩ => ⟨S32x64x4x56x56, .f32⟩
  | .hbm, ⟨14, _⟩ => ⟨S_, .f32⟩
  | .hbm, ⟨15, _⟩ => ⟨S32x64x56x56, .f32⟩
  | .hbm, ⟨16, _⟩ => ⟨S_, .f32⟩
  | .hbm, ⟨17, _⟩ => ⟨S32x64x56x56, .f32⟩
  | .hbm, ⟨18, _⟩ => ⟨S32x64x56x56, .i1⟩
  | .hbm, ⟨19, _⟩ => ⟨S32x64x56x56, .f32⟩
  | .hbm, ⟨20, _⟩ => ⟨S_, .f32⟩
  | .hbm, ⟨21, _⟩ => ⟨S32x64x56x56, .f32⟩
  | .hbm, ⟨22, _⟩ => ⟨S32x64x56x56, .f32⟩
  | .hbm, ⟨23, _⟩ => ⟨S_, .f32⟩
  | .hbm, ⟨24, _⟩ => ⟨S32x64x56x56, .f32⟩
  | .hbm, ⟨25, _⟩ => ⟨S32x64x56x56, .f32⟩
  | .hbm, ⟨26, _⟩ => ⟨S32x64x56x56, .f32⟩
  | .hbm, ⟨27, _⟩ => ⟨S32x64x56x56, .f32⟩
  | .hbm, ⟨28, _⟩ => ⟨S_, .f32⟩
  | .hbm, ⟨29, _⟩ => ⟨S32x64x56x56, .f32⟩
  | .hbm, ⟨30, _⟩ => ⟨S32x64x56x56, .f32⟩
  | .hbm, ⟨31, _⟩ => ⟨S_, .f32⟩
  | .hbm, ⟨32, _⟩ => ⟨S32x64x56x56, .f32⟩
  | .hbm, ⟨33, _⟩ => ⟨S32x64x56x56, .f32⟩
  | .hbm, ⟨34, _⟩ => ⟨S32x64x56x56, .f32⟩
  | .hbm, ⟨35, _⟩ => ⟨S32x64x56x56, .f32⟩
  | _, _ => ⟨S32x8x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  shapeCasts_S32x8x32x56x56_S32x256x56x56 : S32x8x32x56x56.ShapeCasts S32x256x56x56
  shapeCasts_S64x4_S256 : S64x4.ShapeCasts S256
  bcast_S_S256 : S_.BroadcastsInDim S256 (![] : Fin 0 → Fin S256.rank)
  bcast_S256_S256x1_0 : S256.BroadcastsInDim S256x1 (![0] : Fin 1 → Fin S256x1.rank)
  shapeCasts_S32x256x56x56_S32x64x4x56x56 : S32x256x56x56.ShapeCasts S32x64x4x56x56
  reducesTo_S32x64x4x56x56_S32x64x56x56_d2 : S32x64x4x56x56.ReducesTo [2] S32x64x56x56
  h_S_ : 0 < S_.numel
  bcast_S_S32x64x56x56 : S_.BroadcastsInDim S32x64x56x56 (![] : Fin 0 → Fin S32x64x56x56.rank)
  gather_S32x256x56x56_S256x1_S32x256x56x56_023_1_n_n_1_1_3215656_wf : GatherDims.WF S32x256x56x56 S256x1 S32x256x56x56 [0, 2, 3] [1] [] [1] [] 1 ![32, 1, 56, 56]

variable [Facts₀]

def gather_S32x256x56x56_S256x1_S32x256x56x56_023_1_n_n_1_1_3215656 : GatherDims S32x256x56x56 S256x1 S32x256x56x56 where
  offsetDims := [0, 2, 3]
  collapsedSliceDims := [1]
  operandBatchingDims := []
  startIndicesBatchingDims := []
  startIndexMap := [1]
  indexVectorDim := 1
  sliceSizes := ![32, 1, 56, 56]
  wf := gather_S32x256x56x56_S256x1_S32x256x56x56_023_1_n_n_1_1_3215656_wf

class Facts : Prop extends Facts₀ where

variable [Facts]
-- ==== Proof.Domain.lean ====
/-
  The precondition read back. It is the conjunction of two `all`s: every entry of `x` has `|x| < +∞`, and every word
  of the routing table satisfies `0 ≤ w` and `w < 256` as signed 32-bit integers. An `all` that holds gives its
  element at every index; `|x| < +∞` on the extended reals leaves exactly the reals (`|⊤| = |⊥| = ⊤`); and a word that
  is non-negative signed has its top bit clear, so it reads the same unsigned, hence below 256.
-/
import proofs.«417927_j58042188038462_3_alg».proof.Pre_finite_inputs
import proofs.«417927_j58042188038462_3_alg».proof.Proof.Gen.Pre_finite_inputs
import Idealize.ShloMosaic.Lib.ReduceAll
import Idealize.ShloMosaic.Lib.ValueIdx
import Idealize.ShloMosaic.PureOps.Ideal

noncomputable section

namespace Cert.Domain

open Idealize.ShloMosaic Cert.Pre_finite_inputs

/-- The scalar shape has one index. -/
instance : Subsingleton S_.Idx := ⟨fun _ _ => funext fun d => d.elim0⟩

/-- An extended real whose absolute value is below the f32 word of `+∞` is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec
  · exfalso; revert h; simp [Ideal.cmp]
  · exact ⟨_, rfl⟩
  · exfalso; revert h; simp [Ideal.cmp]

/-- A word in `[0, 256)` signed is below 256 unsigned. -/
theorem toNat_lt_of_signed_range (w : BitVec 32) (h0 : IntOp.cmpi .sge w 0#32 = 1#1)
    (h1 : IntOp.cmpi .slt w 256#32 = 1#1) : w.toNat < 256 := by
  rw [IntOp.cmpi_sge, show (0#32 : BitVec 32).toInt = 0 from by decide] at h0
  rw [IntOp.cmpi_slt, show (256#32 : BitVec 32).toInt = 256 from by decide] at h1
  have hc : 2 * w.toNat < 2 ^ 32 := BitVec.toInt_pos_iff.1 h0
  rw [BitVec.toInt_eq_toNat_of_lt hc] at h1
  omega

/-- THE PRECONDITION DECODED: every entry of `x` is a real, every table word is a plane number. -/
theorem of_pre (x : FVec Ideal S32x8x32x56x56 .f32) (idx : IVec S64x4 32)
    (h : fn (F := Ideal) x idx = fun _ => 1#1) :
    (∀ i, ∃ r : ℝ, x i = (r : EReal)) ∧ (∀ i, (idx i).toNat < 256) := by
  have e := congrFun h ValueIdx.ix0
  dsimp only [fn] at e
  obtain ⟨e1, e2⟩ := IntOp.andi_eq_one.1 e
  refine ⟨fun i => ?_, fun i => ?_⟩
  · have ha := Host.reduce_andi_all _ _ _ _ _ e1 i
    exact real_of_abs_lt_inf (x i) ha
  · have hb := Host.reduce_andi_all _ _ _ _ _ e2 i
    have hb' : IntOp.andi (IntOp.cmpi .sge (idx i) 0#32) (IntOp.cmpi .slt (idx i) 256#32) = 1#1 := hb
    obtain ⟨h0, h1⟩ := IntOp.andi_eq_one.1 hb'
    exact toNat_lt_of_signed_range (idx i) h0 h1

end Cert.Domain

end
-- ==== Proof.SelectedCount.lean ====
/-
  The mathematics of the certificate, with no program in sight.

  Input: bit-planes `x : [32, 8, 32, 56, 56]` (batch, 8 × 32 = 256 planes, a 56 × 56 image) and a routing table
  `idx : [64, 4]` of plane numbers. Output channel `c` at batch `b`, pixel `(h, w)` counts the four planes its row of
  the table selects, `s = ∑ j, x[b, idx[c, j]]` (plane `t` is `x[b, t / 32, t % 32]`), and returns
  `(1[s ≥ 2] − σ(6 (s − 2))) + σ(6 (s − 2))`, `σ` the logistic function.

  One side computes `s` by selecting: it reads plane `idx[c, j]` directly. The other builds the selection matrix
  `M[c, t] = ∑ j, 1[idx[c, j] = t]` and multiplies, `s = ∑ t, M[c, t] · x[b, t]`. For plane numbers in `[0, 256)` and finite
  `x` these agree: `∑ t, (∑ j, 1[a j = t]) · y t = ∑ j, ∑ t, 1[a j = t] · y t = ∑ j, y (a j)` — distributing the product over
  the inner sum is where finiteness is used (on the extended reals `(1 + 1) · ⊤` and `1 · ⊤ + 1 · ⊥`-like corners do
  not distribute), so the law is proved on the reals and carried over.
-/
import Idealize.ShloMosaic.PureOps.Ideal
import Idealize.ShloMosaic.PureOps.Ideal.Laws
import Idealize.ShloMosaic.Lib.IdealHost
import Idealize.ShloMosaic.Lib.ValueIdx

noncomputable section

namespace Cert.SelectedCount

open Idealize.ShloMosaic Idealize.ShloMosaic.ValueIdx

/-! ## Sums of reals inside the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The law: multiplying by the selection matrix selects -/

/-- On the reals: `∑ t, (∑ j, 1[a j = t]) · y t = ∑ j, y (a j)`. -/
theorem select_real {K J : Type} [Fintype K] [Fintype J] [DecidableEq K] (a : J → K) (y : K → ℝ) :
    ∑ t, (∑ j, (if a j = t then (1 : ℝ) else 0)) * y t = ∑ j, y (a j) := by
  simp_rw [Finset.sum_mul]
  rw [Finset.sum_comm]
  refine Finset.sum_congr rfl fun j _ => ?_
  simp [ite_mul]

/-- On the extended reals, for finite `y` and a matrix `M` whose entry `(t)` is `0 + ∑ j, e j t` with `e j t` the indicator
    of `a j = t`: the product's row sum is the sum of the selected entries. -/
theorem select_ereal {K J : Type} [Fintype K] [Fintype J] [DecidableEq K] (a : J → K) (y : K → EReal)
    (hy : ∀ t, ∃ r : ℝ, y t = (r : EReal)) (e : J → K → EReal)
    (he : ∀ j t, e j t = ((if a j = t then (1 : ℝ) else 0 : ℝ) : EReal)) :
    ∑ t, ((0 : EReal) + ∑ j, e j t) * y t = ∑ j, y (a j) := by
  choose r hr using hy
  simp only [he, hr, zero_add, ← coe_sum, ← EReal.coe_mul]
  exact congrArg _ (select_real a r)

/-! ## The specification -/

abbrev SX : Shape := ⟨5, ![32, 8, 32, 56, 56]⟩
abbrev STab : Shape := ⟨2, ![64, 4]⟩
abbrev SOut : Shape := ⟨4, ![32, 64, 56, 56]⟩

/-- A table word as a plane number: its value, cut off at the last plane (inside `[0, 256)` it is the value). -/
def planeOf (w : BitVec 32) : Fin 256 := ⟨min w.toNat 255, by omega⟩

theorem planeOf_val_of_lt {w : BitVec 32} (h : w.toNat < 256) : (planeOf w).val = w.toNat := by
  unfold planeOf; simp only; omega

/-- Plane `t` of `x` at batch `b`, pixel `(h, w)`: the 256 planes are the 8 × 32 middle axes, row-major. -/
def plane (x : SX.Idx → EReal) (b : Fin 32) (t : Fin 256) (h w : Fin 56) : EReal :=
  x (ix5 b ⟨t.val / 32, by omega⟩ ⟨t.val % 32, by omega⟩ h w)

/-- From the count to the output: `(1[s ≥ 2] − σ(6 (s − 2))) + σ(6 (s − 2))`, the constants the f32 words of 2 and 6. -/
def steOf (s : EReal) : EReal :=
  (((Ideal.cmp .oge s (Ideal.ofBits .f32 0x40000000#32)).toNat : ℝ) : EReal)
      - Ideal.logistic (Ideal.ofBits .f32 0x40C00000#32 * (s - Ideal.ofBits .f32 0x40000000#32))
    + Ideal.logistic (Ideal.ofBits .f32 0x40C00000#32 * (s - Ideal.ofBits .f32 0x40000000#32))

/-- The result, as one function of the two arguments. -/
def result (x : SX.Idx → EReal) (idx : STab.Idx → BitVec 32) : SOut.Idx → EReal := fun i =>
  steOf (∑ j : Fin 4, plane x (i 0) (planeOf (idx (ix2 (i 1) j))) (i 2) (i 3))

/-- A one-bit word widened to 32 bits reads the same signed as the bit reads unsigned. -/
theorem toInt_setWidth_bit : ∀ w : BitVec 1, ((w.setWidth 32).toInt : ℤ) = (w.toNat : ℤ) := by decide

end Cert.SelectedCount

end
-- ==== Proof.RefValue.lean ====
/-
  The reference's result is the specification (`SelectedCount.result`), for table words in `[0, 256)`.

  The reference flattens the table to 256 words (word `4 c + j` is `idx[c, j]`), adds 256 to the negative ones, and
  gathers along the plane axis of `x` viewed as `[32, 256, 56, 56]`: gathered plane `n` at `(b, h, w)` is plane
  `clamp(word n)` of `x` at `(b, h, w)`. For a word in range neither the wrap nor the clamp moves it. The gathered
  `[32, 256, 56, 56]` array is then viewed as `[32, 64, 4, 56, 56]` and summed over its axis of four: channel `c`
  sums gathered planes `4 c`, …, `4 c + 3`, the four planes row `c` of the table names. All the re-viewing is row-major
  index arithmetic. The rest of the reference is the count-to-output function, pointwise.
-/
import proofs.«417927_j58042188038462_3_alg».proof.Proof.Gen.ReferenceIdeal.Read
import proofs.«417927_j58042188038462_3_alg».proof.Proof.SelectedCount
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Cert.SelectedCount

/-! ## The gather along the plane axis, read at an index -/

/-- The gather's dimension numbers: axis 1 of the operand is collapsed and start-indexed, the others are offsets. -/
abbrev gd : GatherDims S32x256x56x56 S256x1 S32x256x56x56 :=
  gather_S32x256x56x56_S256x1_S32x256x56x56_023_1_n_n_1_1_3215656

variable {α : Type} (X : S32x256x56x56.Idx → α) (I : IVec S256x1 32) (j : S32x256x56x56.Idx)

/-- Off the plane axis nothing is start-indexed, -/
theorem start_0 : gd.start j I 0 = 0 := by unfold GatherDims.start; rw [dif_neg (by decide)]
theorem start_2 : gd.start j I 2 = 0 := by unfold GatherDims.start; rw [dif_neg (by decide)]
theorem start_3 : gd.start j I 3 = 0 := by unfold GatherDims.start; rw [dif_neg (by decide)]
/-- and the offset is the result's own coordinate. -/
theorem off_0 : gd.offCoord j 0 = (j 0).val := by unfold GatherDims.offCoord; rw [dif_pos (by decide)]; rfl
theorem off_2 : gd.offCoord j 2 = (j 2).val := by unfold GatherDims.offCoord; rw [dif_pos (by decide)]; rfl
theorem off_3 : gd.offCoord j 3 = (j 3).val := by unfold GatherDims.offCoord; rw [dif_pos (by decide)]; rfl

theorem operand_0 : (gd.operandIdx j I 0 : ℕ) = (j 0).val := by
  show gd.start j I 0 + gd.batchCoord j 0 + gd.offCoord j 0 = _
  rw [start_0, GatherDims.batchCoord_eq_zero _ _ _ List.not_mem_nil, off_0]
  omega
theorem operand_2 : (gd.operandIdx j I 2 : ℕ) = (j 2).val := by
  show gd.start j I 2 + gd.batchCoord j 2 + gd.offCoord j 2 = _
  rw [start_2, GatherDims.batchCoord_eq_zero _ _ _ List.not_mem_nil, off_2]
  omega
theorem operand_3 : (gd.operandIdx j I 3 : ℕ) = (j 3).val := by
  show gd.start j I 3 + gd.batchCoord j 3 + gd.offCoord j 3 = _
  rw [start_3, GatherDims.batchCoord_eq_zero _ _ _ List.not_mem_nil, off_3]
  omega

/-- On the plane axis: the start index of row `j 1` of the index column, read signed and clamped into `[0, 255]`. -/
theorem operand_1 : (gd.operandIdx j I 1 : ℕ) = min (I (ix2 (j 1) (0 : Fin 1))).toInt.toNat 255 := by
  show gd.start j I 1 + gd.batchCoord j 1 + gd.offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 4) ∈ gd.startIndexMap from List.mem_singleton.mpr rfl)]
  have hsi : gd.siIdx j ⟨List.idxOf (1 : Fin 4) gd.startIndexMap,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- Gathered plane `j 1` at batch `j 0`, pixel `(j 2, j 3)` is the operand's plane at that clamped start index, at the same
    batch and pixel. -/
theorem gather_apply :
    Host.gather gd X I j
      = X (ix4 (j 0) ⟨min (I (ix2 (j 1) (0 : Fin 1))).toInt.toNat 255, by omega⟩ (j 2) (j 3)) := by
  unfold Host.gather
  congr 1
  funext a
  refine Fin.ext ?_
  match a with
  | ⟨0, _⟩ => exact operand_0 I j
  | ⟨1, _⟩ => exact operand_1 I j
  | ⟨2, _⟩ => exact operand_2 I j
  | ⟨3, _⟩ => exact operand_3 I j

/-! ## A word in range is neither wrapped nor clamped -/

/-- jnp's wrap of a negative index (`w < 0 ? w + 256 : w`) leaves a word in `[0, 256)` alone. -/
theorem wrap_of_lt {w : BitVec 32} (h : w.toNat < 256) :
    Scalar.select (IntOp.cmpi .slt w 0#32) (IntOp.addi w 256#32) w = w := by
  have hn : ¬ IntOp.cmpi .slt w 0#32 = 1#1 := by
    rw [IntOp.cmpi_slt, BitVec.toInt_eq_toNat_of_lt (by omega), show (0#32 : BitVec 32).toInt = 0 from by decide]
    omega
  rw [eq_zero_of_ne_one hn, select_zero]

/-- And the gather's clamp of its signed reading is its plane number. -/
theorem clamp_of_lt {w : BitVec 32} (h : w.toNat < 256) : min w.toInt.toNat 255 = (planeOf w).val := by
  rw [planeOf_val_of_lt h, BitVec.toInt_eq_toNat_of_lt (by omega)]
  simp only [Int.toNat_natCast]; omega

/-! ## The count -/

variable (x : FVec Ideal S32x8x32x56x56 .f32) (idx : IVec S64x4 32)

/-- The word the gather starts plane `4 c + k` at is `idx[c, k]`, when that is in range. -/
theorem start_word (hidx : ∀ i, (idx i).toNat < 256) (i : S32x64x56x56.Idx) (k : Fin 4) :
    val_main_v7 (F := Ideal) idx (ix2 (idx_main_v9 (idx_main_v10 i k) 1) (0 : Fin 1)) = idx (ix2 (i 1) k) := by
  rw [val_main_v7_apply, val_main_v6_apply, val_main_v3_apply, val_main_v5_apply, val_main_v1_apply, val_main_v2_apply,
    val_main_v4_apply]
  have hq : idx_main_v1 (idx_main_v7 (ix2 (idx_main_v9 (idx_main_v10 i k) 1) (0 : Fin 1))) = ix2 (i 1) k := by
    have h0 : (i 0).val < 32 := (i 0).isLt
    have h1 : (i 1).val < 64 := (i 1).isLt
    have h2 : (i 2).val < 56 := (i 2).isLt
    have h3 : (i 3).val < 56 := (i 3).isLt
    have hk : k.val < 4 := k.isLt
    funext a; refine Fin.ext ?_
    match a with
    | ⟨0, _⟩ =>
      show ((((((i 0).val * 64 + (i 1).val) * 4 + k.val) * 56 + (i 2).val) * 56 + (i 3).val) / 3136 % 256) / 4 = (i 1).val
      omega
    | ⟨1, _⟩ =>
      show ((((((i 0).val * 64 + (i 1).val) * 4 + k.val) * 56 + (i 2).val) * 56 + (i 3).val) / 3136 % 256) % 4 = k.val
      omega
  rw [hq]
  exact wrap_of_lt (hidx _)

/-- The reference's count at `(b, c, h, w)` is the sum of the four planes row `c` of the table names. -/
theorem count_eq (hidx : ∀ i, (idx i).toNat < 256) (i : S32x64x56x56.Idx) :
    val_main_v10 (F := Ideal) x idx i = ∑ k : Fin 4, plane x (i 0) (planeOf (idx (ix2 (i 1) k))) (i 2) (i 3) := by
  rw [val_main_v10_apply, show val_main_cst (F := Ideal) (Shape.Idx.first h_S_) = 0 from Ideal.ofBits_zero_f32, zero_add]
  refine Finset.sum_congr rfl fun k _ => ?_
  rw [val_main_v9_apply]
  unfold val_main_v8
  rw [gather_apply, val_main_v0_apply]
  unfold plane
  have hW : min (val_main_v7 (F := Ideal) idx (ix2 (idx_main_v9 (idx_main_v10 i k) 1) (0 : Fin 1))).toInt.toNat 255
      = (planeOf (idx (ix2 (i 1) k))).val := by
    rw [start_word idx hidx]; exact clamp_of_lt (hidx _)
  have hp : (planeOf (idx (ix2 (i 1) k))).val < 256 := (planeOf (idx (ix2 (i 1) k))).isLt
  have h0 : (i 0).val < 32 := (i 0).isLt
  have h1 : (i 1).val < 64 := (i 1).isLt
  have h2 : (i 2).val < 56 := (i 2).isLt
  have h3 : (i 3).val < 56 := (i 3).isLt
  have hk : k.val < 4 := k.isLt
  have e0 : (idx_main_v9 (idx_main_v10 i k) 0).val = (i 0).val := by
    show (((((i 0).val * 64 + (i 1).val) * 4 + k.val) * 56 + (i 2).val) * 56 + (i 3).val) / 802816 = _; omega
  have e2 : (idx_main_v9 (idx_main_v10 i k) 2).val = (i 2).val := by
    show (((((i 0).val * 64 + (i 1).val) * 4 + k.val) * 56 + (i 2).val) * 56 + (i 3).val) / 56 % 56 = _; omega
  have e3 : (idx_main_v9 (idx_main_v10 i k) 3).val = (i 3).val := by
    show (((((i 0).val * 64 + (i 1).val) * 4 + k.val) * 56 + (i 2).val) * 56 + (i 3).val) % 56 = _; omega
  refine congrArg x (funext fun a => Fin.ext ?_)
  match a with
  | ⟨0, _⟩ =>
    show ((((idx_main_v9 (idx_main_v10 i k) 0).val * 256 + min _ 255) * 56 + (idx_main_v9 (idx_main_v10 i k) 2).val) * 56
      + (idx_main_v9 (idx_main_v10 i k) 3).val) / 802816 = (i 0).val
    rw [hW, e0, e2, e3]; omega
  | ⟨1, _⟩ =>
    show ((((idx_main_v9 (idx_main_v10 i k) 0).val * 256 + min _ 255) * 56 + (idx_main_v9 (idx_main_v10 i k) 2).val) * 56
      + (idx_main_v9 (idx_main_v10 i k) 3).val) / 100352 % 8 = (planeOf (idx (ix2 (i 1) k))).val / 32
    rw [hW, e0, e2, e3]; omega
  | ⟨2, _⟩ =>
    show ((((idx_main_v9 (idx_main_v10 i k) 0).val * 256 + min _ 255) * 56 + (idx_main_v9 (idx_main_v10 i k) 2).val) * 56
      + (idx_main_v9 (idx_main_v10 i k) 3).val) / 3136 % 32 = (planeOf (idx (ix2 (i 1) k))).val % 32
    rw [hW, e0, e2, e3]; omega
  | ⟨3, _⟩ =>
    show ((((idx_main_v9 (idx_main_v10 i k) 0).val * 256 + min _ 255) * 56 + (idx_main_v9 (idx_main_v10 i k) 2).val) * 56
      + (idx_main_v9 (idx_main_v10 i k) 3).val) / 56 % 56 = (i 2).val
    rw [hW, e0, e2, e3]; omega
  | ⟨4, _⟩ =>
    show ((((idx_main_v9 (idx_main_v10 i k) 0).val * 256 + min _ 255) * 56 + (idx_main_v9 (idx_main_v10 i k) 2).val) * 56
      + (idx_main_v9 (idx_main_v10 i k) 3).val) % 56 = (i 3).val
    rw [hW, e0, e2, e3]; omega

/-! ## The result -/

/-- THE REFERENCE IS THE SPECIFICATION: its last stage, index by index, is the count-to-output function of the count;
    its expanded logistic `1 / (1 + e^(-z))` is the logistic function once the f32 word of 1 is read as 1. -/
theorem result_eq (hidx : ∀ i, (idx i).toNat < 256) : val_main_v25 (F := Ideal) x idx = result x idx := by
  funext i
  simp only [val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_v12_apply, val_main_v11_apply,
    val_main_cst_1_apply, val_main_cst_2_apply, val_main_cst_3_apply, val_main_cst_4_apply, val_main_cst_5_apply,
    count_eq x idx hidx]
  rw [show FloatOps.ofBits (F := Ideal) .f32 0x3F800000#32 = (1 : EReal) from Ideal.ofBits_one_f32]
  rfl

end Cert.ReferenceIdeal.RefValue

end
-- ==== Proof.KernelPoint.lean ====
/-
  What the kernel body computes at one grid point, index by index.

  A point holds two batches. For each, the body multiplies the 64 × 256 selection matrix `M` by the batch's 256 × 3136
  matrix of planes (pixels flattened), into a zero accumulator: entry `(c, l)` of the product is `∑ t, M[c, t] · P[t, l]`.
  Everything after the product is pointwise — the threshold `1[s ≥ 2]`, the logistic of `6 (s − 2)`, and
  `(hard − soft) + soft` — and is the count-to-output function of the specification applied to each entry; the kernel
  converts the threshold bit through a 32-bit signed word, which reads the same as the bit. The plane block is loaded with
  a leading unit axis, which the shape casts drop before the product and restore after it.
-/
import proofs.«417927_j58042188038462_3_alg».proof.Proof.Gen.KernelIdeal.Skeleton
import proofs.«417927_j58042188038462_3_alg».proof.Proof.SelectedCount
import Idealize.ShloMosaic.Lib.Pipeline.Value
import Idealize.ShloMosaic.Lib.ValueIdx
import Idealize.ShloMosaic.PureOps.Ideal.Laws

noncomputable section

namespace Cert.KernelIdeal.Point

open Cert.KernelIdeal Cert.KernelIdeal.Gen
open Idealize.ShloMosaic Idealize.ShloMosaic.ValueIdx Cert.SelectedCount

/-! ## The product's index maps -/

/-- The product's dimension numbers: axis 1 of the matrix against axis 0 of the planes. -/
abbrev D : DotDims S64x256 S256x3136 S64x3136 := dot_S64x256_S256x3136_S64x3136_1_0_0_1_n_n

theorem lhs_0 (j : S64x3136.Idx) (k : D.contr.Idx) : (D.lhsIdx j k 0 : ℕ) = j 0 := by
  simp [DotDims.lhsIdx, D, dot_S64x256_S256x3136_S64x3136_1_0_0_1_n_n]; rfl
theorem lhs_1 (j : S64x3136.Idx) (k : D.contr.Idx) : (D.lhsIdx j k 1 : ℕ) = k ⟨0, by decide⟩ := by
  simp [DotDims.lhsIdx, D, dot_S64x256_S256x3136_S64x3136_1_0_0_1_n_n]; rfl
theorem rhs_0 (j : S64x3136.Idx) (k : D.contr.Idx) : (D.rhsIdx j k 0 : ℕ) = k ⟨0, by decide⟩ := by
  simp [DotDims.rhsIdx, D, dot_S64x256_S256x3136_S64x3136_1_0_0_1_n_n]; rfl
theorem rhs_1 (j : S64x3136.Idx) (k : D.contr.Idx) : (D.rhsIdx j k 1 : ℕ) = j 1 := by
  simp [DotDims.rhsIdx, D, dot_S64x256_S256x3136_S64x3136_1_0_0_1_n_n]; rfl

/-- The contraction runs over the 256 planes. -/
def planes : D.contr.Idx ≃ Fin 256 := contrEquiv1 D 256 (by decide) (by decide)

theorem planes_symm_val (t : Fin 256) : ((planes.symm t) ⟨0, by decide⟩ : ℕ) = t.val :=
  contrEquiv1_symm_val D 256 (by decide) (by decide) t

/-! ## The product at an index -/

/-- Entry `(c, l)` of the product of the matrix block with a plane block: `∑ t, M[c, t] · P[0, t, l]`. -/
theorem product_apply (v0 : Vec Ideal S64x256 .bf16) (v : Vec Ideal S1x256x3136 .f32) (c : Fin 64) (l : Fin 3136) :
    matmul D none (k0_pay2 v0) (truncf .bf16 (shapeCast S256x3136 v shapeCasts_S1x256x3136_S256x3136) bitsLt_bf16_f32)
        (constant S64x3136 .f32 0x00000000#32) (ix2 c l)
      = ∑ t : Fin 256, v0 (ix2 c t) * v (ix3 (0 : Fin 1) t l) := by
  unfold matmul
  rw [Ideal.matmul_constant_zero_apply, ← Equiv.sum_comp planes.symm]
  refine Finset.sum_congr rfl fun t _ => ?_
  congr 1
  · unfold k0_pay2
    rw [shapeCast_self]
    refine congrArg v0 ?_
    apply Shape.idx_ext₂
    · exact lhs_0 _ _
    · exact (lhs_1 _ _).trans (planes_symm_val t)
  · show shapeCast S256x3136 v shapeCasts_S1x256x3136_S256x3136 (D.rhsIdx (ix2 c l) (planes.symm t)) = _
    refine (shapeCast_dropUnit_apply (![256, 3136] : Fin 2 → Nat) v _ _).trans ?_
    refine congrArg v (funext fun a => Fin.ext ?_)
    match a with
    | ⟨0, _⟩ => rfl
    | ⟨1, _⟩ =>
      show (D.rhsIdx (ix2 c l) (planes.symm t) 0 : ℕ) = t.val
      exact (rhs_0 (ix2 c l) (planes.symm t)).trans (planes_symm_val t)
    | ⟨2, _⟩ =>
      show (D.rhsIdx (ix2 c l) (planes.symm t) 1 : ℕ) = l.val
      exact rhs_1 (ix2 c l) (planes.symm t)

/-! ## After the product -/

/-- The body after the product: threshold, logistic, `(hard − soft) + soft`, restored to a block with a leading unit axis. -/
def afterProduct (s : FVec Ideal S64x3136 .f32) : FVec Ideal S1x64x3136 .f32 :=
  shapeCast S1x64x3136
    (addf
      (subf (sitofp .f32 (extui 32 (cmpf .oge s (broadcast S64x3136 (Scalar.ofBits .f32 0x40000000#32))) natLt_1_32))
        (logistic (mulf (broadcast S64x3136 (Scalar.ofBits .f32 0x40C00000#32))
          (subf s (broadcast S64x3136 (Scalar.ofBits .f32 0x40000000#32))))))
      (logistic (mulf (broadcast S64x3136 (Scalar.ofBits .f32 0x40C00000#32))
        (subf s (broadcast S64x3136 (Scalar.ofBits .f32 0x40000000#32))))))
    shapeCasts_S64x3136_S1x64x3136

/-- It is the count-to-output function, entry by entry. -/
theorem afterProduct_apply (s : FVec Ideal S64x3136 .f32) (c : Fin 64) (l : Fin 3136) :
    afterProduct s (ix3 (0 : Fin 1) c l) = steOf (s (ix2 c l)) := by
  unfold afterProduct
  refine (shapeCast_addUnit_apply (![64, 3136] : Fin 2 → Nat) _ _ (ix3 (0 : Fin 1) c l)).trans ?_
  have hj : (fun a : Fin 2 => (ix3 (0 : Fin 1) c l) a.succ) = ix2 c l := by
    funext a
    match a with
    | ⟨0, _⟩ => rfl
    | ⟨1, _⟩ => rfl
  rw [hj]
  unfold steOf
  show ((((Ideal.cmp .oge (s (ix2 c l)) (Ideal.ofBits .f32 0x40000000#32)).setWidth 32).toInt : ℝ) : EReal) - _ + _ = _
  rw [toInt_setWidth_bit, Int.cast_natCast]
  rfl

/-- Both payloads are the product followed by that. -/
theorem pay_first (v0 : Vec Ideal S64x256 .bf16) (v2 : Vec Ideal S1x256x3136 .f32) :
    k0_pay3 v0 v2 = afterProduct (matmul D none (k0_pay2 v0)
      (truncf .bf16 (shapeCast S256x3136 v2 shapeCasts_S1x256x3136_S256x3136) bitsLt_bf16_f32)
      (constant S64x3136 .f32 0x00000000#32)) := rfl
theorem pay_second (v0 : Vec Ideal S64x256 .bf16) (v20 : Vec Ideal S1x256x3136 .f32) :
    k0_pay1 (k0_pay4 v0 v20) = afterProduct (matmul D none (k0_pay2 v0)
      (truncf .bf16 (shapeCast S256x3136 v20 shapeCasts_S1x256x3136_S256x3136) bitsLt_bf16_f32)
      (constant S64x3136 .f32 0x00000000#32)) := rfl

/-- THE BODY AT ONE BATCH: the stored block at channel `c`, pixel `l` is the count-to-output function of
    `∑ t, M[c, t] · P[0, t, l]`. -/
theorem first_apply (v0 : Vec Ideal S64x256 .bf16) (v2 : Vec Ideal S1x256x3136 .f32) (c : Fin 64) (l : Fin 3136) :
    k0_pay3 v0 v2 (ix3 (0 : Fin 1) c l) = steOf (∑ t : Fin 256, v0 (ix2 c t) * v2 (ix3 (0 : Fin 1) t l)) := by
  rw [pay_first, afterProduct_apply, product_apply]
theorem second_apply (v0 : Vec Ideal S64x256 .bf16) (v20 : Vec Ideal S1x256x3136 .f32) (c : Fin 64) (l : Fin 3136) :
    k0_pay1 (k0_pay4 v0 v20) (ix3 (0 : Fin 1) c l) = steOf (∑ t : Fin 256, v0 (ix2 c t) * v20 (ix3 (0 : Fin 1) t l)) := by
  rw [pay_second, afterProduct_apply, product_apply]

/-- The same at any index of the stored block (its leading coordinate can only be 0). -/
theorem first_at (v0 : Vec Ideal S64x256 .bf16) (v2 : Vec Ideal S1x256x3136 .f32) (y : S1x64x3136.Idx) :
    k0_pay3 v0 v2 y = steOf (∑ t : Fin 256, v0 (ix2 (y 1) t) * v2 (ix3 (y 0) t (y 2))) := by
  obtain ⟨a, c, l, rfl⟩ : ∃ (a : Fin 1) (c : Fin 64) (l : Fin 3136), y = ix3 a c l := ⟨y 0, y 1, y 2, eq_ix3 y⟩
  obtain rfl : a = 0 := Subsingleton.elim _ _
  exact first_apply v0 v2 c l
theorem second_at (v0 : Vec Ideal S64x256 .bf16) (v20 : Vec Ideal S1x256x3136 .f32) (y : S1x64x3136.Idx) :
    k0_pay1 (k0_pay4 v0 v20) y = steOf (∑ t : Fin 256, v0 (ix2 (y 1) t) * v20 (ix3 (y 0) t (y 2))) := by
  obtain ⟨a, c, l, rfl⟩ : ∃ (a : Fin 1) (c : Fin 64) (l : Fin 3136), y = ix3 a c l := ⟨y 0, y 1, y 2, eq_ix3 y⟩
  obtain rfl : a = 0 := Subsingleton.elim _ _
  exact second_apply v0 v20 c l

end Cert.KernelIdeal.Point

end
-- ==== Proof.KernelArray.lean ====
/-
  From one grid point to the whole array the region leaves.

  The grid has 16 points; point `t` stages batches `2 t` and `2 t + 1` of the planes (a `[2, 256, 3136]` block), the
  whole selection matrix (the same `[64, 256]` block at every point), and writes back a `[2, 64, 3136]` block of the
  result at batches `2 t`, `2 t + 1`. The body's two stores tile that block — batch 0 of the block from the first
  product, batch 1 from the second — so the block is ONE function of the staged blocks: at `(a, c, l)` the
  count-to-output function of `∑ t, M[c, t] · P[a, t, l]`. Reading the staged blocks back through their windows, what
  point `t` writes is the restriction to its block of one whole-array function of the planes and the matrix; the 16
  blocks cover the array (batch `b` is in block `b / 2`), so the array ends holding that function.
-/
import proofs.«417927_j58042188038462_3_alg».proof.Proof.Gen.KernelIdeal.Frame
import proofs.«417927_j58042188038462_3_alg».proof.Proof.KernelPoint
import Idealize.ShloMosaic.Lib.Pipeline.Value
import Idealize.ShloMosaic.Lib.ValueIdx

set_option maxRecDepth 16384

noncomputable section

namespace Cert.KernelIdeal.WholeArray

open Cert.KernelIdeal Cert.KernelIdeal.Gen Cert.KernelIdeal.Point
open Idealize.ShloMosaic Idealize.ShloMosaic.TcCoe Idealize.ShloMosaic.ValueIdx Idealize.SL.Sem Cert.SelectedCount
open Idealize.ShloMosaic.Pipeline (Dat)

variable (m : (ℓ : Loc nD τ sig) → Buf (Elt Ideal) ℓ)

/-! ## The block a point leaves, as one function of its staged blocks -/

/-- At `(a, c, l)`: the count-to-output function of `∑ t, M[c, t] · P[a, t, l]`. -/
def blockOut (x0 : Vec Ideal S2x256x3136 .f32) (x1 : Vec Ideal S64x256 .bf16) : S2x64x3136.Idx → EReal := fun y =>
  steOf (∑ t : Fin 256, x1 (ix2 (y 1) t) * x0 (ix3 (y 0) t (y 2)))

/-- The body's two stores, each one batch of the block, are restrictions of it; they tile the block. -/
theorem out_eq (x0 : Vec Ideal S2x256x3136 .f32) (x1 : Vec Ideal S64x256 .bf16) : out0_2 x0 x1 = blockOut x0 x1 := by
  funext y
  unfold out0_2
  refine View.canon_apply_of_pieces (Val := Elt Ideal) (blockOut x0 x1) _ ?_ y (cover0_2 _ _ y)
  intro p hp x
  simp only [List.mem_cons, List.mem_nil_iff, or_false] at hp
  rcases hp with rfl | rfl
  · show k0_pay1 (k0_pay4 (View.ld x1 r0_0) (View.ld x0 r0_3)) x = blockOut x0 x1 (r0_4.idx x)
    rw [second_at]
    unfold blockOut
    refine congrArg steOf (Finset.sum_congr rfl fun t _ => ?_)
    congr 1
    · refine congrArg x1 (funext fun a => Fin.ext ?_)
      match a with
      | ⟨0, _⟩ => show 0 + 1 * (x 1).val = 0 + 1 * (x 1).val; rfl
      | ⟨1, _⟩ => show 0 + 1 * t.val = t.val; omega
    · refine congrArg x0 (funext fun a => Fin.ext ?_)
      match a with
      | ⟨0, _⟩ => show 1 + 1 * (x 0).val = 1 + 1 * (x 0).val; rfl
      | ⟨1, _⟩ => show 0 + 1 * t.val = t.val; omega
      | ⟨2, _⟩ => show 0 + 1 * (x 2).val = 0 + 1 * (x 2).val; rfl
  · show k0_pay3 (View.ld x1 r0_0) (View.ld x0 r0_1) x = blockOut x0 x1 (r0_2.idx x)
    rw [first_at]
    unfold blockOut
    refine congrArg steOf (Finset.sum_congr rfl fun t _ => ?_)
    congr 1
    · refine congrArg x1 (funext fun a => Fin.ext ?_)
      match a with
      | ⟨0, _⟩ => show 0 + 1 * (x 1).val = 0 + 1 * (x 1).val; rfl
      | ⟨1, _⟩ => show 0 + 1 * t.val = t.val; omega
    · refine congrArg x0 (funext fun a => Fin.ext ?_)
      match a with
      | ⟨0, _⟩ => show 0 + 1 * (x 0).val = 0 + 1 * (x 0).val; rfl
      | ⟨1, _⟩ => show 0 + 1 * t.val = t.val; omega
      | ⟨2, _⟩ => show 0 + 1 * (x 2).val = 0 + 1 * (x 2).val; rfl

/-! ## The whole-array function, and what a point writes back -/

/-- At `(b, c, l)`: the count-to-output function of `∑ t, M[c, t] · P[b, t, l]`, over all 32 batches. -/
def thresholded (P : S32x256x3136.Idx → EReal) (M : S64x256.Idx → EReal) : S32x64x3136.Idx → EReal := fun i =>
  steOf (∑ t : Fin 256, M (ix2 (i 1) t) * P (ix3 (i 0) t (i 2)))

/-- The printed index maps over the grid: planes and result move together along the batch axis, the matrix stays. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) ≤ 15 :=
  (by decide +kernel : ∀ t : Fin grid0.N, _)

/-- Every pair of batches is some point's. -/
theorem idx_onto : ∀ q : Fin 16, ∃ t : Fin cfg0.N, win0_2.index t = ![q.val, 0, 0] :=
  (by decide +kernel : ∀ q : Fin 16, ∃ t : Fin grid0.N, win0_2.index t = ![q.val, 0, 0])

/-! The staged blocks and the two arrays under names of their literal types: the library reads a window's block at a type
    that mentions the window, and arithmetic on entries is stated over these names instead. -/

/-- Point `t`'s block of planes, `[2, 256, 3136]`; -/
abbrev planesBlk (c : Dev nD) (t : Fin cfg0.N) : Vec Ideal S2x256x3136 .f32 := iblk m c 0 t
/-- its block of the matrix, the whole `[64, 256]`; -/
abbrev matrixBlk (c : Dev nD) (t : Fin cfg0.N) : Vec Ideal S64x256 .bf16 := iblk m c 1 t
/-- the planes and the matrix as the region finds them. -/
abbrev planesArr (c : Dev nD) : S32x256x3136.Idx → EReal := V m c main_v0
abbrev matrixArr (c : Dev nD) : S64x256.Idx → EReal := V m c main_v3

/-- What the body leaves at point `t` is the block function of the staged blocks. -/
theorem after_eq (c : Dev nD) (t : Fin cfg0.N) :
    (dats m 0 c).after 2 t = blockOut (planesBlk m c t) (matrixBlk m c t) := by
  rw [after0_2]
  exact out_eq (planesBlk m c t) (matrixBlk m c t)

/-- The planes' block at point `t` is batches `2 t`, `2 t + 1` of the planes (`t` read off the result window's index); -/
theorem planesBlk_apply (c : Dev nD) (t : Fin cfg0.N) (y : S2x256x3136.Idx) (i : S32x256x3136.Idx)
    (h0 : (i 0).val = win0_2.index t (0 : Fin 3) * 2 + (y 0).val) (h1 : (i 1).val = (y 1).val)
    (h2 : (i 2).val = (y 2).val) : planesBlk m c t y = planesArr m c i := by
  obtain ⟨e0, e1, e2, -⟩ := idx_facts t
  show V m c main_v0 (((cfg0.win 0).blk t).view.emb y) = V m c main_v0 i
  refine congrArg (V m c main_v0) (funext fun a => Fin.ext ?_)
  match a with
  | ⟨0, _⟩ => show win0_0.index t (0 : Fin 3) * 2 + 1 * (y 0).val = (i 0).val; omega
  | ⟨1, _⟩ => show win0_0.index t (1 : Fin 3) * 256 + 1 * (y 1).val = (i 1).val; omega
  | ⟨2, _⟩ => show win0_0.index t (2 : Fin 3) * 3136 + 1 * (y 2).val = (i 2).val; omega

/-- the matrix's block is the matrix. -/
theorem matrixBlk_apply (c : Dev nD) (t : Fin cfg0.N) (y : S64x256.Idx) : matrixBlk m c t y = matrixArr m c y := by
  obtain ⟨-, -, -, e3, e4, -⟩ := idx_facts t
  show V m c main_v3 (((cfg0.win 1).blk t).view.emb y) = V m c main_v3 y
  refine congrArg (V m c main_v3) (funext fun a => Fin.ext ?_)
  match a with
  | ⟨0, _⟩ => show win0_1.index t (0 : Fin 2) * 64 + 1 * (y 0).val = (y 0).val; omega
  | ⟨1, _⟩ => show win0_1.index t (1 : Fin 2) * 256 + 1 * (y 1).val = (y 1).val; omega

/-- Where the result window's block at point `t` places its index `y` in the array. -/
theorem resultBlk_emb (t : Fin cfg0.N) (y : S2x64x3136.Idx) :
    ((((cfg0.win 2).blk t).view.emb y) 0).val = win0_2.index t (0 : Fin 3) * 2 + 1 * (y 0).val
    ∧ ((((cfg0.win 2).blk t).view.emb y) 1).val = win0_2.index t (1 : Fin 3) * 64 + 1 * (y 1).val
    ∧ ((((cfg0.win 2).blk t).view.emb y) 2).val = win0_2.index t (2 : Fin 3) * 3136 + 1 * (y 2).val :=
  ⟨rfl, rfl, rfl⟩

/-- WHAT POINT `t` WRITES BACK is block `t` of the whole-array function of the planes and the matrix as the region
    finds them. -/
theorem flushed_eq (c : Dev nD) (t : Fin cfg0.N) :
    (dats m 0 c).flushed 2 t
      = ((cfg0.win 2).blk t).view.read (Elt Ideal) (thresholded (planesArr m c) (matrixArr m c)) := by
  show (cfg0.win 2).cut (grid0.coords t) ((dats m 0 c).after 2 t) = _
  rw [after_eq m c t]
  funext y
  show blockOut (planesBlk m c t) (matrixBlk m c t) y
    = thresholded (planesArr m c) (matrixArr m c) (((cfg0.win 2).blk t).view.emb y)
  unfold blockOut thresholded
  refine congrArg steOf (Finset.sum_congr rfl fun k _ => ?_)
  obtain ⟨q0, q1, q2⟩ := resultBlk_emb t y
  obtain ⟨-, -, -, -, -, e5, e6, -⟩ := idx_facts t
  refine congrArg₂ (· * ·) ?_ ?_
  · refine (matrixBlk_apply m c t (ix2 (y 1) k)).trans (congrArg (matrixArr m c) (funext fun a => Fin.ext ?_))
    match a with
    | ⟨0, _⟩ =>
      show (y 1).val = ((((cfg0.win 2).blk t).view.emb y) 1).val
      rw [q1, e5]; omega
    | ⟨1, _⟩ => rfl
  · refine planesBlk_apply m c t (ix3 (y 0) k (y 2))
      (ix3 ((((cfg0.win 2).blk t).view.emb y) 0) k ((((cfg0.win 2).blk t).view.emb y) 2)) ?_ rfl ?_
    · show ((((cfg0.win 2).blk t).view.emb y) 0).val = win0_2.index t (0 : Fin 3) * 2 + (y 0).val
      rw [q0]; omega
    · show ((((cfg0.win 2).blk t).view.emb y) 2).val = (y 2).val
      rw [q2, e6]; omega

/-! ## The blocks cover the array -/

/-- An index of the result array is in point `t`'s block iff each coordinate is in the block's range on its axis. -/
theorem mem_blk (t : Fin cfg0.N) (i : S32x64x3136.Idx) :
    i ∈ ((cfg0.win 2).blk t).view.set ↔ ∀ a : Fin 3, win0_2.index t a * S2x64x3136.size a ≤ (i a).val
      ∧ (i a).val < win0_2.index t a * S2x64x3136.size a + S2x64x3136.size a := by
  show i ∈ ((View.whole main_v4).slice (win0_2.rect t)).set ↔ _
  rw [View.set_slice_whole, Rect.mem_set_unit]
  exact Iff.rfl

/-- Batch `b` is in the block of point `b / 2`. -/
theorem cover (i : S32x64x3136.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 3136 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 2 ≤ (i 0).val ∧ (i 0).val < win0_2.index t (0 : Fin 3) * 2 + 2
    omega
  | ⟨1, _⟩ =>
    show win0_2.index t (1 : Fin 3) * 64 ≤ (i 1).val ∧ (i 1).val < win0_2.index t (1 : Fin 3) * 64 + 64
    omega
  | ⟨2, _⟩ =>
    show win0_2.index t (2 : Fin 3) * 3136 ≤ (i 2).val ∧ (i 2).val < win0_2.index t (2 : Fin 3) * 3136 + 3136
    omega

/-- THE ARRAY after the region: the whole-array function of the planes and the matrix as the region found them. -/
theorem final (c : Dev nD) :
    (dats m 0 c).arrAt 2 cfg0.N = thresholded (planesArr m c) (matrixArr m c) :=
  (dats m 0 c).arrAt_eq_of_cover 2 (thresholded (planesArr m c) (matrixArr m c)) (fun t _ => flushed_eq m c t) cover

end Cert.KernelIdeal.WholeArray

end
-- ==== Proof.KernelAround.lean ====
/-
  Around the region: what the host operations before it hand the kernel, what the one after it makes of the kernel's
  array, and the kernel program's result as the specification.

  Before the region the program views `x` as `[32, 256, 3136]` (planes × flattened pixels: plane `t`, pixel `l` is
  `x[b, t / 32, t % 32, l / 56, l % 56]`) and builds the selection matrix: the table, broadcast along a new axis of
  256, is compared for equality with the plane numbers `0 … 255`, the bits are converted to `0.0 / 1.0` and summed
  over the table's axis of four: `M[c, t] = 0 + ∑ j, 1[idx[c, j] = t]` (the narrowing to bf16 is the identity on the
  extended reals). After the region the `[32, 64, 3136]` array is viewed as `[32, 64, 56, 56]`: pixel `(h, w)` is
  flattened pixel `56 h + w`.

  With table words in `[0, 256)` the indicator `1[idx[c, j] = t]` is `1[plane number of idx[c, j] = t]`, and with `x`
  finite the selection law (`SelectedCount.select_ereal`) turns the product row `∑ t, M[c, t] · P[b, t, l]` into
  `∑ j, P[b, idx[c, j], l]`: the specification's count.
-/
import proofs.«417927_j58042188038462_3_alg».proof.Proof.KernelArray
import Idealize.ShloMosaic.Lib.StableHlo.Run
import Idealize.ShloMosaic.Lib.Pipeline.Value
import Idealize.ShloMosaic.Lib.Affine

set_option maxRecDepth 16384

noncomputable section

namespace Cert.KernelIdeal.Around

open Cert.KernelIdeal Cert.KernelIdeal.Gen Cert.KernelIdeal.WholeArray
open Idealize.ShloMosaic Idealize.ShloMosaic.TcCoe Idealize.ShloMosaic.ValueIdx Idealize.SL.Sem Cert.SelectedCount
open Idealize.ShloMosaic.StableHlo
open Idealize.ShloMosaic.Pipeline (Dat)

variable (m : (ℓ : Loc nD τ sig) → Buf (Elt Ideal) ℓ) (ρ : Dev nD → PrngReg)

/-! ## Before the region -/

/-- The planes as the region finds them: `x` viewed `[32, 256, 3136]`. -/
theorem planes_eq (c : Dev nD) :
    planesArr m c
      = shapeCast S32x256x3136 (m ((c : Thread nD τ).loc main_arg0)) shapeCasts_S32x8x32x56x56_S32x256x3136 := by
  dsimp only [planesArr, V, V0]
  simp only [hostOps0, hostOps0_1, hostOps0_2, List.flatten_cons, List.flatten_nil, List.append_nil, List.cons_append,
    List.nil_append]
  after_results
  rfl

/-- The selection matrix as the region finds it. -/
theorem matrix_eq (c : Dev nD) :
    matrixArr m c
      = (truncf .bf16 (Host.reduceAdd (uitofp .f32 (cmpi .eq
          (broadcastInDim S64x4x256 ![0, 1, 2] bcast_S64x4x1_S64x4x256_0_1_2
            (broadcastInDim S64x4x1 ![0, 1] bcast_S64x4_S64x4x1_0_1 (m ((c : Thread nD τ).loc main_arg1))))
          (broadcastInDim S64x4x256 ![0, 1, 2] bcast_S1x1x256_S64x4x256_0_1_2 (iotaInDim S1x1x256 32 2))))
        (constant S_ .f32 0x00000000#32) reducesTo_S64x4x256_S64x256_d1 h_S_) bitsLt_bf16_f32 : FVec Ideal S64x256 .bf16) := by
  dsimp only [matrixArr, V, V0]
  simp only [hostOps0, hostOps0_1, hostOps0_2, List.flatten_cons, List.flatten_nil, List.append_nil, List.cons_append,
    List.nil_append]
  after_results
  rfl

/-- Plane `t`, flattened pixel `l` of batch `b` is `x[b, t / 32, t % 32, l / 56, l % 56]`. -/
theorem planes_apply (c : Dev nD) (b : Fin 32) (t : Fin 256) (l : Fin 3136) :
    planesArr m c (ix3 b t l)
      = plane (m ((c : Thread nD τ).loc main_arg0)) b t ⟨l.val / 56, by omega⟩ ⟨l.val % 56, by omega⟩ := by
  refine (congrFun (planes_eq m c) (ix3 b t l)).trans ?_
  unfold plane
  refine shapeCast_apply _ shapeCasts_S32x8x32x56x56_S32x256x3136 (ix3 b t l) _ ?_
  rewrite [Shape.rowMajor_val_five, Shape.rowMajor_val_three]
  have hb : b.val < 32 := b.isLt
  have ht : t.val < 256 := t.isLt
  have hl : l.val < 3136 := l.isLt
  show ((((b.val * 8 + t.val / 32) * 32 + t.val % 32) * 56 + l.val / 56) * 56 + l.val % 56)
    = (b.val * 256 + t.val) * 3136 + l.val
  omega

/-! ### The matrix's entries -/

/-- Summing a `[64, 4, 256]` array over its axis of four, from the zero word. -/
theorem reduce_rows (Y : FVec Ideal S64x4x256 .f32) (c' : Fin 64) (t : Fin 256) :
    Host.reduceAdd Y (constant S_ .f32 0x00000000#32) reducesTo_S64x4x256_S64x256_d1 h_S_ (ix2 c' t)
      = (0 : EReal) + ∑ j : Fin 4, Y (ix3 c' j t) := by
  simp only [Host.reduceAdd, Ideal.hostReduceAdd_def]
  rw [Ideal.hostReduceAdd_single reducesTo_S64x4x256_S64x256_d1 (by decide)]
  refine congrArg₂ (· + ·) Ideal.ofBits_zero_f32 (Finset.sum_congr rfl fun j _ => ?_)
  exact congrArg Y (funext fun a => Fin.ext (by match a with | ⟨0, _⟩ => rfl | ⟨1, _⟩ => rfl | ⟨2, _⟩ => rfl))

/-- The table broadcast along the new axis of 256 reads, at `(c', j, t)`, the table at `(c', j)`; -/
theorem table_bcast (idx : IVec S64x4 32) (c' : Fin 64) (j : Fin 4) (t : Fin 256) :
    broadcastInDim S64x4x256 ![0, 1, 2] bcast_S64x4x1_S64x4x256_0_1_2
        (broadcastInDim S64x4x1 ![0, 1] bcast_S64x4_S64x4x1_0_1 idx) (ix3 c' j t) = idx (ix2 c' j) := by
  refine (broadcastInDim_apply _ bcast_S64x4x1_S64x4x256_0_1_2 _ (ix3 c' j t) (ix3 c' j (0 : Fin 1)) fun a => ?_).trans
    (broadcastInDim_apply _ bcast_S64x4_S64x4x1_0_1 idx (ix3 c' j (0 : Fin 1)) (ix2 c' j) fun a => ?_)
  · match a with
    | ⟨0, _⟩ => show c'.val = if (64 : Nat) = 1 then 0 else c'.val; rw [if_neg (by decide)]
    | ⟨1, _⟩ => show j.val = if (4 : Nat) = 1 then 0 else j.val; rw [if_neg (by decide)]
    | ⟨2, _⟩ => show (0 : Nat) = if (1 : Nat) = 1 then 0 else t.val; rw [if_pos rfl]
  · match a with
    | ⟨0, _⟩ => show c'.val = if (64 : Nat) = 1 then 0 else c'.val; rw [if_neg (by decide)]
    | ⟨1, _⟩ => show j.val = if (4 : Nat) = 1 then 0 else j.val; rw [if_neg (by decide)]

/-- the plane numbers `0 … 255` broadcast over the table's axes read `t` there. -/
theorem iota_bcast (c' : Fin 64) (j : Fin 4) (t : Fin 256) :
    broadcastInDim S64x4x256 ![0, 1, 2] bcast_S1x1x256_S64x4x256_0_1_2 (iotaInDim S1x1x256 32 2) (ix3 c' j t)
      = BitVec.ofNat 32 t.val := by
  refine (broadcastInDim_apply _ bcast_S1x1x256_S64x4x256_0_1_2 _ (ix3 c' j t)
    (ix3 (0 : Fin 1) (0 : Fin 1) t) fun a => ?_).trans rfl
  match a with
  | ⟨0, _⟩ => show (0 : Nat) = if (1 : Nat) = 1 then 0 else c'.val; rw [if_pos rfl]
  | ⟨1, _⟩ => show (0 : Nat) = if (1 : Nat) = 1 then 0 else j.val; rw [if_pos rfl]
  | ⟨2, _⟩ => show t.val = if (256 : Nat) = 1 then 0 else t.val; rw [if_neg (by decide)]

/-- Entry `(c', t)` of the matrix: `0 + ∑ j, 1[idx[c', j] = t]`, the indicator the equality bit read as a number. -/
theorem matrix_apply (c : Dev nD) (c' : Fin 64) (t : Fin 256) :
    matrixArr m c (ix2 c' t)
      = (0 : EReal) + ∑ j : Fin 4,
          (((IntOp.cmpi .eq (m ((c : Thread nD τ).loc main_arg1) (ix2 c' j)) (BitVec.ofNat 32 t.val)).toNat : ℝ) : EReal) := by
  refine (congrFun (matrix_eq m c) (ix2 c' t)).trans ?_
  refine (reduce_rows _ c' t).trans ?_
  refine congrArg (fun s : EReal => 0 + s) (Finset.sum_congr rfl fun j _ => ?_)
  show (((IntOp.cmpi .eq
      (broadcastInDim S64x4x256 ![0, 1, 2] bcast_S64x4x1_S64x4x256_0_1_2
        (broadcastInDim S64x4x1 ![0, 1] bcast_S64x4_S64x4x1_0_1 (m ((c : Thread nD τ).loc main_arg1))) (ix3 c' j t))
      (broadcastInDim S64x4x256 ![0, 1, 2] bcast_S1x1x256_S64x4x256_0_1_2 (iotaInDim S1x1x256 32 2) (ix3 c' j t))).toNat : ℝ) : EReal) = _
  rw [table_bcast, iota_bcast]

/-- For a word in `[0, 256)` the equality bit against plane number `t` is the indicator of "its plane number is `t`". -/
theorem indicator_eq {w : BitVec 32} (hw : w.toNat < 256) (t : Fin 256) :
    (((IntOp.cmpi .eq w (BitVec.ofNat 32 t.val)).toNat : ℝ) : EReal)
      = ((if planeOf w = t then (1 : ℝ) else 0 : ℝ) : EReal) := by
  have ht : t.val < 256 := t.isLt
  have hmod : t.val % 2 ^ 32 = t.val := Nat.mod_eq_of_lt (by omega)
  by_cases h : planeOf w = t
  · have hv : w.toNat = t.val := by rw [← planeOf_val_of_lt hw, h]
    have he : w = BitVec.ofNat 32 t.val := by
      apply BitVec.eq_of_toNat_eq; rw [BitVec.toNat_ofNat, hv, hmod]
    rw [if_pos h, IntOp.cmpi_eq.2 he]
    simp
  · have hne : ¬ IntOp.cmpi .eq w (BitVec.ofNat 32 t.val) = 1#1 := by
      rw [IntOp.cmpi_eq]
      intro he
      exact h (Fin.ext (by rw [planeOf_val_of_lt hw, he, BitVec.toNat_ofNat, hmod]))
    rw [if_neg h, eq_zero_of_ne_one hne]
    simp

/-! ## The region's array, by the selection law -/

/-- With the table in range and `x` finite, the array the region leaves holds, at `(b, c', l)`, the count-to-output
    function of the sum of the four planes row `c'` of the table names, at flattened pixel `l`. -/
theorem thresholded_apply (c : Dev nD)
    (hfin : ∀ i, ∃ r : ℝ, m ((c : Thread nD τ).loc main_arg0) i = (r : EReal))
    (hidx : ∀ i, (m ((c : Thread nD τ).loc main_arg1) i).toNat < 256)
    (b : Fin 32) (c' : Fin 64) (l : Fin 3136) :
    thresholded (planesArr m c) (matrixArr m c) (ix3 b c' l)
      = steOf (∑ j : Fin 4, plane (m ((c : Thread nD τ).loc main_arg0)) b
          (planeOf (m ((c : Thread nD τ).loc main_arg1) (ix2 c' j))) ⟨l.val / 56, by omega⟩ ⟨l.val % 56, by omega⟩) := by
  unfold thresholded
  refine congrArg steOf ?_
  refine (Finset.sum_congr rfl fun t _ =>
    congrArg₂ (fun a b : EReal => a * b) (matrix_apply m c c' t) (planes_apply m c b t l)).trans ?_
  exact select_ereal (fun j : Fin 4 => planeOf (m ((c : Thread nD τ).loc main_arg1) (ix2 c' j)))
    (fun t : Fin 256 => plane (m ((c : Thread nD τ).loc main_arg0)) b t ⟨l.val / 56, by omega⟩ ⟨l.val % 56, by omega⟩)
    (fun t => hfin _)
    (fun j t => (((IntOp.cmpi .eq (m ((c : Thread nD τ).loc main_arg1) (ix2 c' j)) (BitVec.ofNat 32 t.val)).toNat : ℝ) : EReal))
    (fun j t => indicator_eq (hidx _) t)

/-! ## After the region -/

/-- The program's result buffer: the region's array viewed `[32, 64, 56, 56]`. -/
theorem tail_eq (c : Dev nD) :
    (Pipeline.afterTail₀ cfgs (dats m) 0 (V0 m) [hostOps1] c main_v5 : S32x64x56x56.Idx → EReal)
      = shapeCast S32x64x56x56 ((dats m 0 c).arrAt 2 cfg0.N) shapeCasts_S32x64x3136_S32x64x56x56 := by
  have hw := Pipeline.withArrays_arr (cfgs 0).spec launch0.win.arr_inj c (V0 m c)
    (fun w => (dats m 0 c).arrAt w (cfgs 0).N) 2
  unfold Pipeline.afterTail₀
  show StableHlo.after hostOps1 _ (Proc.devRef .tc main_v5) = _
  after_results
  exact congrArg (fun A : S32x64x3136.Idx → EReal =>
    (shapeCast S32x64x56x56 A shapeCasts_S32x64x3136_S32x64x56x56 : S32x64x56x56.Idx → EReal)) hw

/-- THE KERNEL PROGRAM'S RESULT IS THE SPECIFICATION, for a table in range and finite `x`. -/
theorem value_eq (c : Dev nD)
    (hfin : ∀ i, ∃ r : ℝ, m ((c : Thread nD τ).loc main_arg0) i = (r : EReal))
    (hidx : ∀ i, (m ((c : Thread nD τ).loc main_arg1) i).toNat < 256) :
    (Pipeline.afterTail₀ cfgs (dats m) 0 (V0 m) [hostOps1] c main_v5 : S32x64x56x56.Idx → EReal)
      = result (m ((c : Thread nD τ).loc main_arg0)) (m ((c : Thread nD τ).loc main_arg1)) := by
  refine (tail_eq m c).trans ?_
  rw [final m c]
  funext i
  obtain ⟨b, c', h, w, rfl⟩ : ∃ (b : Fin 32) (c' : Fin 64) (h w : Fin 56), i = ix4 b c' h w :=
    ⟨i 0, i 1, i 2, i 3, eq_ix4 i⟩
  have hb : b.val < 32 := b.isLt
  have hc : c'.val < 64 := c'.isLt
  have hh : h.val < 56 := h.isLt
  have hw : w.val < 56 := w.isLt
  refine (shapeCast_apply _ shapeCasts_S32x64x3136_S32x64x56x56 (ix4 b c' h w)
    (ix3 b c' (⟨h.val * 56 + w.val, by omega⟩ : Fin 3136)) ?_).trans ?_
  · rewrite [Shape.rowMajor_val_three, Shape.rowMajor_val_four]
    show (b.val * 64 + c'.val) * 3136 + (h.val * 56 + w.val) = ((b.val * 64 + c'.val) * 56 + h.val) * 56 + w.val
    omega
  · rw [thresholded_apply m c hfin hidx]
    unfold result
    refine congrArg steOf (Finset.sum_congr rfl fun j _ => ?_)
    have e1 : (⟨(h.val * 56 + w.val) / 56, by omega⟩ : Fin 56) = h := Fin.ext (by show (h.val * 56 + w.val) / 56 = h.val; omega)
    have e2 : (⟨(h.val * 56 + w.val) % 56, by omega⟩ : Fin 56) = w := Fin.ext (by show (h.val * 56 + w.val) % 56 = w.val; omega)
    show plane _ b _ ⟨(h.val * 56 + w.val) / 56, _⟩ ⟨(h.val * 56 + w.val) % 56, _⟩ = plane _ b _ h w
    rw [e1, e2]

/-! ## The run -/

/-- Every weakly fair execution of the kernel program from a memory with the table in range and `x` finite ends with
    the result buffer at the specification and the arguments unchanged. -/
theorem run
    (hfin : ∀ (c : Dev nD) i, ∃ r : ℝ, m ((c : Thread nD τ).loc main_arg0) i = (r : EReal))
    (hidx : ∀ (c : Dev nD) i, (m ((c : Thread nD τ).loc main_arg1) i).toNat < 256) :
    θ_run defs (onTc (τ := τ) (main (F := Ideal))) ⟨m, fun _ => 0, ρ⟩ (fun r => ∀ c : Dev nD,
      r.2.mem ((c : Thread nD τ).loc main_v5)
          = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
    ⟨((h c).2 main_v5 (Pipeline.mem_restRefs_of main_v5 (by decide) (by decide))).trans (value_eq m c (hfin c) (hidx c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Around

end
-- ==== Proof.lean ====
/-
  Two programs compute, from bit-planes `x : [32, 8, 32, 56, 56]` and a routing table `idx : [64, 4]` of plane numbers,
  the output `(1[s ≥ 2] − σ(6 (s − 2))) + σ(6 (s − 2))` of the count `s[b, c, h, w] = ∑ j, x[b, plane idx[c, j], h, w]`
  (`σ` the logistic function; plane `t` is `x[b, t / 32, t % 32]`). The reference selects the four planes by a gather; the
  kernel builds the 0/1 selection matrix `M[c, t] = ∑ j, 1[idx[c, j] = t]` and multiplies it into the planes on the
  matrix unit, two batches per grid point.

  Precondition: `x` finite, and every table word in `[0, 256)`. Outside that range the reference indexes out of range
  (a negative word is wrapped, a large one clamped) while the comparison with the plane numbers simply finds no match, so
  the two differ; inside it both compute the specification `SelectedCount.result`:
  * the reference by reading its gather and re-viewings at an index (`RefValue.result_eq`);
  * the kernel because the product row `∑ t, M[c, t] · x[b, t]` is `∑ j, x[b, idx[c, j]]` — distribute the product over
    the indicator sum and exchange the two sums, which needs `x` finite (`SelectedCount.select_ereal`) — and the 16
    blocks the grid writes tile the result array (`KernelArray`, `KernelAround`).
  The count-to-output step is the same pointwise function on both sides: the kernel's logistic operation and the
  reference's `1 / (1 + e^(−z))` are one function on the extended reals. Nothing was rewritten by the idealization, so
  the word-level kernel's idealization claim is trivial; the frames of the two kernel programs are the generated ones, the
  reference's is its run with the result dropped.
-/
import proofs.«417927_j58042188038462_3_alg».proof.Defs
import proofs.«417927_j58042188038462_3_alg».proof.Proof.Gen.Kernel
import proofs.«417927_j58042188038462_3_alg».proof.Proof.Gen.Kernel.Skeleton
import proofs.«417927_j58042188038462_3_alg».proof.Proof.Gen.Kernel.Launch
import proofs.«417927_j58042188038462_3_alg».proof.Proof.Gen.Kernel.Points
import proofs.«417927_j58042188038462_3_alg».proof.Proof.Gen.Kernel.Frame
import proofs.«417927_j58042188038462_3_alg».proof.Proof.Gen.KernelIdeal
import proofs.«417927_j58042188038462_3_alg».proof.Proof.Gen.KernelIdeal.Skeleton
import proofs.«417927_j58042188038462_3_alg».proof.Proof.Gen.KernelIdeal.Launch
import proofs.«417927_j58042188038462_3_alg».proof.Proof.Gen.KernelIdeal.Points
import proofs.«417927_j58042188038462_3_alg».proof.Proof.Gen.KernelIdeal.Frame
import proofs.«417927_j58042188038462_3_alg».proof.Proof.Gen.ReferenceIdeal
import proofs.«417927_j58042188038462_3_alg».proof.Proof.Gen.Pre_finite_inputs
import proofs.«417927_j58042188038462_3_alg».proof.Proof.Gen.ReferenceIdeal.Run
import proofs.«417927_j58042188038462_3_alg».proof.Proof.Gen.ReferenceIdeal.Read
import proofs.«417927_j58042188038462_3_alg».proof.Proof.Domain
import proofs.«417927_j58042188038462_3_alg».proof.Proof.RefValue
import proofs.«417927_j58042188038462_3_alg».proof.Proof.KernelAround
import Idealize.ShloMosaic.Adequacy
import Idealize.ShloMosaic.Init

noncomputable section

namespace Cert.Proof

open Idealize.ShloMosaic Idealize.SL.Sem

/-- The two kernel programs run and leave their arguments alone: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and the table, under the precondition, both programs end at the specification of
    those arguments. -/
theorem algebraic : Cert.algebraic_KernelIdeal_ReferenceIdeal := by
  intro m ρ m' ρ' hpre hagree
  have hdom := fun c => Cert.Domain.of_pre _ _ (hpre c)
  refine ⟨_, Cert.KernelIdeal.Around.run m ρ (fun c => (hdom c).1) (fun c => (hdom c).2), ?_⟩
  refine (θ_run Cert.ReferenceIdeal.defs _ _).mono (fun _ h c =>
    ⟨(h c).1.trans ((Cert.ReferenceIdeal.Read.val_main_v25_eq _ _).trans ?_), (h c).2⟩)
    (Cert.ReferenceIdeal.Value.run (F := Ideal) m' ρ')
  rw [(hagree c).1, (hagree c).2]
  exact Cert.ReferenceIdeal.RefValue.result_eq _ _ (hdom c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
